-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S16x4096x768 : Shape := ⟨3, ![16, 4096, 768]⟩
abbrev S32768x128 : Shape := ⟨2, ![32768, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg0 : IVec S16x4096 32) (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S16x4096 32 := broadcastInDim S16x4096 ![] bcast_S_S16x4096 main_c_8
  let main_v25 : IVec S16x4096 1 := cmpi .sge main_arg0 main_v24
  let main_c_9 : IVec S_ 1 := constantI S_ 1 1#1
  let main_v26 : IVec S_ 1 := (fun x v => Host.reduce IntOp.andi x v reducesTo_S16x4096_S_d0_1 h_S_) main_v25 main_c_9
  let main_v27 : IVec S_ 1 := andi main_v23 main_v26
  main_v27

def fn {F : FTy → Type} [FloatOps F] (main_arg0 : IVec S16x4096 32) (main_arg1 : FVec F S16x4096x768 .f32) (main_arg2 : FVec F S32768x128 .f32) (main_arg3 : FVec F S128 .f32) (main_arg4 : FVec F S128x1 .f32) (main_arg5 : FVec F S1 .f32) : IVec S_ 1 :=
  let main_v0 : FVec F S16x4096x768 .f32 := Host.absf main_arg1
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S32768x128 .f32 := Host.absf main_arg2
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg0 main_arg5 main_v13 main_v16
-- ==== Kernel.lean ====
abbrev S16x4096 : Shape := ⟨2, ![16, 4096]⟩
abbrev S16x4096x768 : Shape := ⟨3, ![16, 4096, 768]⟩
abbrev S32768x128 : Shape := ⟨2, ![32768, 128]⟩
abbrev S128 : Shape := ⟨1, ![128]⟩
abbrev S128x1 : Shape := ⟨2, ![128, 1]⟩
abbrev S1 : Shape := ⟨1, ![1]⟩
abbrev S65536 : Shape := ⟨1, ![65536]⟩
abbrev S_ : Shape := ⟨0, ![]⟩
abbrev S65536x768 : Shape := ⟨2, ![65536, 768]⟩
abbrev S32000x128 : Shape := ⟨2, ![32000, 128]⟩
abbrev S768x128 : Shape := ⟨2, ![768, 128]⟩
abbrev S65536x1 : Shape := ⟨2, ![65536, 1]⟩
abbrev S65536x128 : Shape := ⟨2, ![65536, 128]⟩
abbrev S1x128 : Shape := ⟨2, ![1, 128]⟩
abbrev S1x1 : Shape := ⟨2, ![1, 1]⟩
abbrev S2048x768 : Shape := ⟨2, ![2048, 768]⟩
abbrev S2048x128 : Shape := ⟨2, ![2048, 128]⟩
abbrev S2048 : Shape := ⟨1, ![2048]⟩
abbrev S2048x1 : Shape := ⟨2, ![2048, 1]⟩

abbrev nBuf : Space → Nat
  | .hbm => 32
  | .vmem => 10
  | .smem => 0
  | _ => 0

abbrev bufTy : (tb : Table) → Fin (tcTables nBuf tb) → BufTy
  | .hbm, ⟨0, _⟩ => ⟨S16x4096, .i32⟩
  | .hbm, ⟨1, _⟩ => ⟨S16x4096x768, .f32⟩
  | .hbm, ⟨2, _⟩ => ⟨S32768x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S65536, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536x768, .f32⟩
  | .hbm, ⟨16, _⟩ => ⟨S32000x128, .f32⟩
  | .hbm, ⟨17, _⟩ => ⟨S768x128, .f32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S65536x1, .i32⟩
  | .hbm, ⟨26, _⟩ => ⟨S65536x128, .f32⟩
  | .hbm, ⟨27, _⟩ => ⟨S1x128, .f32⟩
  | .hbm, ⟨28, _⟩ => ⟨S1x128, .f32⟩
  | .hbm, ⟨29, _⟩ => ⟨S1x1, .f32⟩
  | .hbm, ⟨30, _⟩ => ⟨S65536, .f32⟩
  | .hbm, ⟨31, _⟩ => ⟨S16x4096, .f32⟩
  | .local _ .vmem, ⟨0, _⟩ => ⟨S2048x768, .f32⟩
  | .local _ .vmem, ⟨1, _⟩ => ⟨S2048x768, .f32⟩
  | .local _ .vmem, ⟨2, _⟩ => ⟨S2048x128, .f32⟩
  | .local _ .vmem, ⟨3, _⟩ => ⟨S2048x128, .f32⟩
  | .local _ .vmem, ⟨4, _⟩ => ⟨S768x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S2048, .f32⟩
  | .local _ .vmem, ⟨9, _⟩ => ⟨S2048, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x4096_S65536 : S16x4096.ShapeCasts S65536
  bcast_S_S65536 : S_.BroadcastsInDim S65536 (![] : Fin 0 → Fin S65536.rank)
  shapeCasts_S16x4096x768_S65536x768 : S16x4096x768.ShapeCasts S65536x768
  slices_S32768x128_S32000x128_0_0 : S32768x128.Slices ![0, 0] S32000x128
  slices_S32768x128_S768x128_32000_0 : S32768x128.Slices ![32000, 0] S768x128
  bcast_S65536_S65536x1_0 : S65536.BroadcastsInDim S65536x1 (![0] : Fin 1 → Fin S65536x1.rank)
  shapeCasts_S128_S1x128 : S128.ShapeCasts S1x128
  transposes_S128x1_S1x128_1_0 : S128x1.Transposes [1, 0] S1x128
  shapeCasts_S1_S1x1 : S1.ShapeCasts S1x1
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S2048x1_S2048 : S2048x1.ShapeCasts S2048
  inb_S2048_S2048_0 : ∀ a, (![0] : Fin 1 → Nat) a + S2048.size a ≤ S2048.size a
  h_S2048 : 0 < S2048.numel
  shapeCasts_S65536_S16x4096 : S65536.ShapeCasts S16x4096
  gather_S32000x128_S65536x1_S65536x128_1_0_n_n_0_1_1128_wf : GatherDims.WF S32000x128 S65536x1 S65536x128 [1] [0] [] [0] [] 1 ![1, 128]
  dot_S2048x768_S768x128_S2048x128_1_0_0_1_n_n_wf : DotDims.WF S2048x768 S768x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S65536x768.size a
  hwx0_0 : ∀ i : grid0.Coords, EltTy.bits .f32 = 32 ∨ (Rect.block (s := S65536x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x128.size a ≤ S768x128.size a
  hwx0_2 : ∀ i : grid0.Coords, EltTy.bits .f32 = 32 ∨ (Rect.block (s := S768x128) S768x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S65536.size a
  hwx0_6 : ∀ i : grid0.Coords, EltTy.bits .f32 = 32 ∨ (Rect.block (s := S65536) S2048.size (cc0_transform_6 i) (hinb0_6 i)).WholeWords (EltTy.packing .f32)

variable [Facts₀]

def gather_S32000x128_S65536x1_S65536x128_1_0_n_n_0_1_1128 : GatherDims S32000x128 S65536x1 S65536x128 where
  offsetDims := [1]
  collapsedSliceDims := [0]
  operandBatchingDims := []
  startIndicesBatchingDims := []
  startIndexMap := [0]
  indexVectorDim := 1
  sliceSizes := ![1, 128]
  wf := gather_S32000x128_S65536x1_S65536x128_1_0_n_n_0_1_1128_wf
def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf

abbrev win0_0 : Pipeline.Window sig grid0 :=
  Pipeline.Window.ofSpec (Memref.whole main_v2) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S768x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x4096 : Shape := ⟨2, ![16, 4096]⟩
abbrev S16x4096x768 : Shape := ⟨3, ![16, 4096, 768]⟩
abbrev S32768x128 : Shape := ⟨2, ![32768, 128]⟩
abbrev S128 : Shape := ⟨1, ![128]⟩
abbrev S128x1 : Shape := ⟨2, ![128, 1]⟩
abbrev S1 : Shape := ⟨1, ![1]⟩
abbrev S32000x128 : Shape := ⟨2, ![32000, 128]⟩
abbrev S_ : Shape := ⟨0, ![]⟩
abbrev S16x4096x1 : Shape := ⟨3, ![16, 4096, 1]⟩
abbrev S16x4096x128 : Shape := ⟨3, ![16, 4096, 128]⟩
abbrev S768x128 : Shape := ⟨2, ![768, 128]⟩
abbrev S1x1x128 : Shape := ⟨3, ![1, 1, 128]⟩
abbrev S1x1x1 : Shape := ⟨3, ![1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S16x4096x768, .f32⟩
  | .hbm, ⟨2, _⟩ => ⟨S32768x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S32000x128, .f32⟩
  | .hbm, ⟨7, _⟩ => ⟨S_, .i32⟩
  | .hbm, ⟨8, _⟩ => ⟨S16x4096, .i32⟩
  | .hbm, ⟨9, _⟩ => ⟨S16x4096, .i1⟩
  | .hbm, ⟨10, _⟩ => ⟨S_, .i32⟩
  | .hbm, ⟨11, _⟩ => ⟨S16x4096, .i32⟩
  | .hbm, ⟨12, _⟩ => ⟨S16x4096, .i32⟩
  | .hbm, ⟨13, _⟩ => ⟨S16x4096, .i32⟩
  | .hbm, ⟨14, _⟩ => ⟨S16x4096x1, .i32⟩
  | .hbm, ⟨15, _⟩ => ⟨S16x4096x128, .f32⟩
  | .hbm, ⟨16, _⟩ => ⟨S768x128, .f32⟩
  | .hbm, ⟨17, _⟩ => ⟨S16x4096x128, .f32⟩
  | .hbm, ⟨18, _⟩ => ⟨S16x4096x128, .f32⟩
  | .hbm, ⟨19, _⟩ => ⟨S1x1x128, .f32⟩
  | .hbm, ⟨20, _⟩ => ⟨S16x4096x128, .f32⟩
  | .hbm, ⟨21, _⟩ => ⟨S16x4096x128, .f32⟩
  | .hbm, ⟨22, _⟩ => ⟨S_, .f32⟩
  | .hbm, ⟨23, _⟩ => ⟨S16x4096x128, .f32⟩
  | .hbm, ⟨24, _⟩ => ⟨S16x4096x128, .f32⟩
  | .hbm, ⟨25, _⟩ => ⟨S16x4096x1, .f32⟩
  | .hbm, ⟨26, _⟩ => ⟨S1x1x1, .f32⟩
  | .hbm, ⟨27, _⟩ => ⟨S16x4096x1, .f32⟩
  | .hbm, ⟨28, _⟩ => ⟨S16x4096x1, .f32⟩
  | .hbm, ⟨29, _⟩ => ⟨S16x4096, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  slices_S32768x128_S32000x128_0_0 : S32768x128.Slices ![0, 0] S32000x128
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  slices_S32768x128_S768x128_32000_0 : S32768x128.Slices ![32000, 0] S768x128
  bcast_S128_S1x1x128_2 : S128.BroadcastsInDim S1x1x128 (![2] : Fin 1 → Fin S1x1x128.rank)
  bcast_S1x1x128_S16x4096x128_0_1_2 : S1x1x128.BroadcastsInDim S16x4096x128 (![0, 1, 2] : Fin 3 → Fin S16x4096x128.rank)
  bcast_S_S16x4096x128 : S_.BroadcastsInDim S16x4096x128 (![] : Fin 0 → Fin S16x4096x128.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  shapeCasts_S16x4096x1_S16x4096 : S16x4096x1.ShapeCasts S16x4096
  gather_S32000x128_S16x4096x1_S16x4096x128_2_0_n_n_0_2_1128_wf : GatherDims.WF S32000x128 S16x4096x1 S16x4096x128 [2] [0] [] [0] [] 2 ![1, 128]
  dot_S16x4096x768_S768x128_S16x4096x128_2_0_01_1_n_n_wf : DotDims.WF S16x4096x768 S768x128 S16x4096x128 [2] [0] [0, 1] [1] [] []
  dot_S16x4096x128_S128x1_S16x4096x1_2_0_01_1_n_n_wf : DotDims.WF S16x4096x128 S128x1 S16x4096x1 [2] [0] [0, 1] [1] [] []

variable [Facts₀]

def gather_S32000x128_S16x4096x1_S16x4096x128_2_0_n_n_0_2_1128 : GatherDims S32000x128 S16x4096x1 S16x4096x128 where
  offsetDims := [2]
  collapsedSliceDims := [0]
  operandBatchingDims := []
  startIndicesBatchingDims := []
  startIndexMap := [0]
  indexVectorDim := 2
  sliceSizes := ![1, 128]
  wf := gather_S32000x128_S16x4096x1_S16x4096x128_2_0_n_n_0_2_1128_wf
def dot_S16x4096x768_S768x128_S16x4096x128_2_0_01_1_n_n : DotDims S16x4096x768 S768x128 S16x4096x128 where
  lhsContracting := [2]
  rhsContracting := [0]
  lhsNonContracting := [0, 1]
  rhsNonContracting := [1]
  lhsBatch := []
  rhsBatch := []
  wf := dot_S16x4096x768_S768x128_S16x4096x128_2_0_01_1_n_n_wf
def dot_S16x4096x128_S128x1_S16x4096x1_2_0_01_1_n_n : DotDims S16x4096x128 S128x1 S16x4096x1 where
  lhsContracting := [2]
  rhsContracting := [0]
  lhsNonContracting := [0, 1]
  rhsNonContracting := [1]
  lhsBatch := []
  rhsBatch := []
  wf := dot_S16x4096x128_S128x1_S16x4096x1_2_0_01_1_n_n_wf

class Facts : Prop extends Facts₀ where

variable [Facts]
-- ==== Proof.Spec.lean ====
/-
  The function both programs compute, and the integer fact that joins their two row selections.

  Every output entry (b, s) is a two-layer perceptron over one token: the hidden vector is
  relu(E[row] + x · Wh + b1), where E is the first 32000 rows of the weight table W1 (the token embeddings), row the
  table row the token id selects, x the 768 features of position (b, s), Wh the last 768 rows of W1; the entry is
  the hidden vector's inner product with the one column of W2, plus b2. The two programs differ only in how a
  token id becomes a row: one clips the id into [0, 31999] first, the other does not; both then wrap a negative
  index by the table's length and both reads clamp into the table. For a non-negative id the two rows agree.
-/
import Idealize.ShloMosaic.PureOps.Ideal
import Idealize.ShloMosaic.Lib.ValueIdx

noncomputable section

namespace Cert.TokMlp

open Idealize.ShloMosaic Idealize.ShloMosaic.ValueIdx

/-! ## Token id to table row -/

/-- The wrap of a negative index by the table's length 32000, as an index expression spells it before a row take. -/
def wrapNeg (v : BitVec 32) : BitVec 32 := Scalar.select (IntOp.cmpi .slt v 0#32) (IntOp.addi v 32000#32) v

/-- The clip of a token id into [0, 31999]: the larger of 0 and the id, then the smaller of 31999 and that. -/
def clipTok (v : BitVec 32) : BitVec 32 := IntOp.minsi 31999#32 (IntOp.maxsi 0#32 v)

/-- The row a take from a 32000-row table reads at start index `v`: the index read signed, clamped into the table. -/
def clampRow (v : BitVec 32) : Fin 32000 := ⟨min v.toInt.toNat 31999, by omega⟩

theorem ofBool_eq_one {b : Bool} (h : BitVec.ofBool b = 1#1) : b = true := by cases b <;> first | rfl | exact absurd h (by decide)

/-- A non-negative word is not below zero, so its wrap is itself. -/
theorem wrapNeg_of_nonneg {v : BitVec 32} (h : 0 ≤ v.toInt) : wrapNeg v = v := by
  have hs : v.slt 0#32 = false := by
    show decide (v.toInt < (0#32 : BitVec 32).toInt) = false
    exact decide_eq_false (by rw [show (0#32 : BitVec 32).toInt = 0 from rfl]; omega)
  unfold wrapNeg
  show Scalar.select (BitVec.ofBool (v.slt 0#32)) _ _ = _
  rw [hs]
  exact select_zero _ _

/-- FOR A NON-NEGATIVE TOKEN ID the clipped id and the id itself select the same row: up to 31999 the clip is the
    identity, and above it the clip gives 31999, which is also where the read of the unclipped id clamps. -/
theorem clampRow_clip_eq (v : BitVec 32) (hv : IntOp.cmpi .sge v 0#32 = 1#1) :
    clampRow (wrapNeg (clipTok v)) = clampRow (wrapNeg v) := by
  have h0 : 0 ≤ v.toInt := by
    have h1 : (0#32 : BitVec 32).sle v = true := ofBool_eq_one hv
    have h2 : (0#32 : BitVec 32).toInt ≤ v.toInt := of_decide_eq_true h1
    rwa [show (0#32 : BitVec 32).toInt = 0 from rfl] at h2
  have hs : v.slt 0#32 = false := by
    show decide (v.toInt < (0#32 : BitVec 32).toInt) = false
    exact decide_eq_false (by rw [show (0#32 : BitVec 32).toInt = 0 from rfl]; omega)
  have hmax : IntOp.maxsi 0#32 v = v := by
    show (if v.slt 0#32 then 0#32 else v) = v
    rw [hs]; rfl
  rw [wrapNeg_of_nonneg h0]
  unfold clipTok
  rw [hmax]
  by_cases hbig : (31999 : Int) < v.toInt
  · have hlt : (31999#32 : BitVec 32).slt v = true := by
      show decide ((31999#32 : BitVec 32).toInt < v.toInt) = true
      exact decide_eq_true (by rw [show (31999#32 : BitVec 32).toInt = 31999 from rfl]; exact hbig)
    have hmin : IntOp.minsi 31999#32 v = 31999#32 := by
      show (if (31999#32 : BitVec 32).slt v then 31999#32 else v) = 31999#32
      rw [hlt]; rfl
    rw [hmin, wrapNeg_of_nonneg (by rw [show (31999#32 : BitVec 32).toInt = 31999 from rfl]; omega)]
    apply Fin.ext
    show min (31999#32 : BitVec 32).toInt.toNat 31999 = min v.toInt.toNat 31999
    rw [show (31999#32 : BitVec 32).toInt = 31999 from rfl]
    omega
  · have hlt : (31999#32 : BitVec 32).slt v = false := by
      show decide ((31999#32 : BitVec 32).toInt < v.toInt) = false
      exact decide_eq_false (by rw [show (31999#32 : BitVec 32).toInt = 31999 from rfl]; exact hbig)
    have hmin : IntOp.minsi 31999#32 v = v := by
      show (if (31999#32 : BitVec 32).slt v then 31999#32 else v) = v
      rw [hlt]; rfl
    rw [hmin, wrapNeg_of_nonneg h0]

/-! ## The result, entry by entry -/

abbrev STok : Shape := ⟨2, ![16, 4096]⟩
abbrev SFeat : Shape := ⟨3, ![16, 4096, 768]⟩
abbrev STable : Shape := ⟨2, ![32768, 128]⟩
abbrev SBias1 : Shape := ⟨1, ![128]⟩
abbrev SProj : Shape := ⟨2, ![128, 1]⟩
abbrev SBias2 : Shape := ⟨1, ![1]⟩

/-- One entry of the result from its ingredients: the embedding row `e`, the features `x`, the hidden weights `Wh`,
    the hidden bias `b1`, the projection column `w2` and its bias `b2`. -/
def cell (e : Fin 128 → EReal) (x : Fin 768 → EReal) (Wh : Fin 768 → Fin 128 → EReal) (b1 w2 : Fin 128 → EReal)
    (b2 : EReal) : EReal :=
  (∑ k : Fin 128, max ((e k + ∑ h : Fin 768, x h * Wh h k) + b1 k) 0 * w2 k) + b2

/-- Row `r` of the embedding part of the weight table (its first 32000 rows), column `k`. -/
abbrev embIdx (r : Fin 32000) (k : Fin 128) : STable.Idx := ix2 ⟨r.val, by have := r.isLt; omega⟩ k
/-- Row `h` of the hidden-weight part of the weight table (its last 768 rows), column `k`. -/
abbrev hidIdx (h : Fin 768) (k : Fin 128) : STable.Idx := ix2 ⟨32000 + h.val, by have := h.isLt; omega⟩ k

/-- THE RESULT, with `row` how a token id selects its embedding row. -/
def out (row : BitVec 32 → Fin 32000) (tk : IVec STok 32) (hs : FVec Ideal SFeat .f32) (W1 : FVec Ideal STable .f32)
    (b1 : FVec Ideal SBias1 .f32) (W2 : FVec Ideal SProj .f32) (b2 : FVec Ideal SBias2 .f32) : FVec Ideal STok .f32 :=
  fun i => cell (fun k => W1 (embIdx (row (tk i)) k)) (fun h => hs (ix3 (i 0) (i 1) h)) (fun h k => W1 (hidIdx h k))
    (fun k => b1 (ix1 k)) (fun k => W2 (ix2 k 0)) (b2 (ix1 0))

/-- Where every token id is non-negative, clipping the ids first does not change the result. -/
theorem out_clip_eq (tk : IVec STok 32) (htk : ∀ i, IntOp.cmpi .sge (tk i) 0#32 = 1#1) (hs : FVec Ideal SFeat .f32)
    (W1 : FVec Ideal STable .f32) (b1 : FVec Ideal SBias1 .f32) (W2 : FVec Ideal SProj .f32) (b2 : FVec Ideal SBias2 .f32) :
    out (fun v => clampRow (wrapNeg (clipTok v))) tk hs W1 b1 W2 b2 = out (fun v => clampRow (wrapNeg v)) tk hs W1 b1 W2 b2 := by
  funext i
  unfold out
  dsimp only
  rw [clampRow_clip_eq (tk i) (htk i)]

end Cert.TokMlp

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.Entry.lean ====
/-
  What the region finds in each window's array: the host lines before it, read at an index.

  Before the region the program flattens the [16 × 4096] positions to 65536 rows (row j is position (j / 4096, j % 4096)),
  clips the token ids into [0, 31999], takes the embedding rows at the clipped ids (a negative index wrapped, the read
  clamped — neither changes a clipped id), cuts the hidden weights out of the weight table, and re-lays the two biases
  and the projection column as rows. Each lemma reads one of those arrays at an index as an entry of an argument array.
-/
import proofs.«423203_j14602888806638_3_alg».proof.Proof.Gen.KernelIdeal.Frame
import proofs.«423203_j14602888806638_3_alg».proof.Proof.Spec
import proofs.«423203_j14602888806638_3_alg».proof.Proof.LibGatherRows
import Idealize.ShloMosaic.Lib.StableHlo.Run
import Idealize.ShloMosaic.Lib.Pipeline.Value
import Idealize.ShloMosaic.Lib.ValueIdx
import Idealize.ShloMosaic.Lib.ValueLayout

noncomputable section

namespace Cert.TokMlp.Ker

open Cert.KernelIdeal Cert.KernelIdeal.Gen Cert.TokMlp
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The arrays, at their literal types -/

/-- The argument arrays. -/
abbrev tkIn (c : Dev nD) : IVec S16x4096 32 := m ((c : Thread nD τ).loc main_arg0)
abbrev featIn (c : Dev nD) : FVec Ideal S16x4096x768 .f32 := m ((c : Thread nD τ).loc main_arg1)
abbrev tableIn (c : Dev nD) : FVec Ideal S32768x128 .f32 := m ((c : Thread nD τ).loc main_arg2)
abbrev bias1In (c : Dev nD) : FVec Ideal S128 .f32 := m ((c : Thread nD τ).loc main_arg3)
abbrev projIn (c : Dev nD) : FVec Ideal S128x1 .f32 := m ((c : Thread nD τ).loc main_arg4)
abbrev bias2In (c : Dev nD) : FVec Ideal S1 .f32 := m ((c : Thread nD τ).loc main_arg5)

/-- The six input windows' arrays as the region finds them. -/
abbrev featArr (c : Dev nD) : FVec Ideal S65536x768 .f32 := V m c main_v2
abbrev embArr (c : Dev nD) : FVec Ideal S65536x128 .f32 := V m c main_v11
abbrev hidArr (c : Dev nD) : FVec Ideal S768x128 .f32 := V m c main_v4
abbrev bias1Arr (c : Dev nD) : FVec Ideal S1x128 .f32 := V m c main_v12
abbrev projArr (c : Dev nD) : FVec Ideal S1x128 .f32 := V m c main_v13
abbrev bias2Arr (c : Dev nD) : FVec Ideal S1x1 .f32 := V m c main_v14

/-- Flat row j is position (j / 4096, j % 4096). -/
abbrev rowB (j : Fin 65536) : Fin 16 := ⟨j.val / 4096, by have := j.isLt; omega⟩
abbrev rowS (j : Fin 65536) : Fin 4096 := ⟨j.val % 4096, Nat.mod_lt _ (by decide)⟩

/-! ## Each array as a term of the arguments -/

/-- The clipped token ids, flat. -/
abbrev clippedIds (c : Dev nD) : IVec S65536 32 :=
  minsi (broadcastInDim S65536 ![] bcast_S_S65536 (constantI S_ 32 31999#32))
    (maxsi (broadcastInDim S65536 ![] bcast_S_S65536 (constantI S_ 32 0#32)) (shapeCast S65536 (tkIn m c) shapeCasts_S16x4096_S65536))

/-- The start indices of the row take: the clipped ids, wrapped if negative, as one column. -/
abbrev startCol (c : Dev nD) : IVec S65536x1 32 :=
  broadcastInDim S65536x1 ![0] bcast_S65536_S65536x1_0
    (select (cmpi .slt (clippedIds m c) (broadcastInDim S65536 ![] bcast_S_S65536 (constantI S_ 32 0#32)))
      (addi (clippedIds m c) (broadcastInDim S65536 ![] bcast_S_S65536 (constantI S_ 32 32000#32))) (clippedIds m c))

theorem featArr_eq (c : Dev nD) : featArr m c = shapeCast S65536x768 (featIn m c) shapeCasts_S16x4096x768_S65536x768 := by
  show V m c main_v2 = _
  dsimp only [Gen.V, Gen.V0]
  simp only [Gen.hostOps0, Gen.hostOps0_1, Gen.hostOps0_2, List.flatten_cons, List.flatten_nil, List.append_nil, List.cons_append, List.nil_append]
  after_results <;> rfl

theorem embArr_eq (c : Dev nD) : embArr m c = Host.gather gather_S32000x128_S65536x1_S65536x128_1_0_n_n_0_1_1128
    (extractStridedSlice S32000x128 ![0, 0] (tableIn m c) slices_S32768x128_S32000x128_0_0) (startCol m c) := by
  show V m c main_v11 = _
  dsimp only [Gen.V, Gen.V0]
  simp only [Gen.hostOps0, Gen.hostOps0_1, Gen.hostOps0_2, List.flatten_cons, List.flatten_nil, List.append_nil, List.cons_append, List.nil_append]
  after_results <;> rfl

theorem hidArr_eq (c : Dev nD) : hidArr m c = extractStridedSlice S768x128 ![32000, 0] (tableIn m c) slices_S32768x128_S768x128_32000_0 := by
  show V m c main_v4 = _
  dsimp only [Gen.V, Gen.V0]
  simp only [Gen.hostOps0, Gen.hostOps0_1, Gen.hostOps0_2, List.flatten_cons, List.flatten_nil, List.append_nil, List.cons_append, List.nil_append]
  after_results <;> rfl

theorem bias1Arr_eq (c : Dev nD) : bias1Arr m c = shapeCast S1x128 (bias1In m c) shapeCasts_S128_S1x128 := by
  show V m c main_v12 = _
  dsimp only [Gen.V, Gen.V0]
  simp only [Gen.hostOps0, Gen.hostOps0_1, Gen.hostOps0_2, List.flatten_cons, List.flatten_nil, List.append_nil, List.cons_append, List.nil_append]
  after_results <;> rfl

theorem projArr_eq (c : Dev nD) : projArr m c = transpose S1x128 [1, 0] (projIn m c) transposes_S128x1_S1x128_1_0 := by
  show V m c main_v13 = _
  dsimp only [Gen.V, Gen.V0]
  simp only [Gen.hostOps0, Gen.hostOps0_1, Gen.hostOps0_2, List.flatten_cons, List.flatten_nil, List.append_nil, List.cons_append, List.nil_append]
  after_results <;> rfl

theorem bias2Arr_eq (c : Dev nD) : bias2Arr m c = shapeCast S1x1 (bias2In m c) shapeCasts_S1_S1x1 := by
  show V m c main_v14 = _
  dsimp only [Gen.V, Gen.V0]
  simp only [Gen.hostOps0, Gen.hostOps0_1, Gen.hostOps0_2, List.flatten_cons, List.flatten_nil, List.append_nil, List.cons_append, List.nil_append]
  after_results <;> rfl

end Cert.TokMlp.Ker

end
-- ==== Proof.EntryRead.lean ====
/-
  The region-entry arrays read at an index, each as an entry of an argument array.

  Flat row j is position (j / 4096, j % 4096). Row j of the features' array is that position's feature vector; row j
  of the embeddings' array is the table row the position's CLIPPED token id selects; the hidden weights are the table's
  last 768 rows; the two bias rows and the projection row are the bias vectors and the projection column laid as rows.
-/
import proofs.«423203_j14602888806638_3_alg».proof.Proof.Entry

noncomputable section

namespace Cert.TokMlp.Ker

open Cert.KernelIdeal Cert.KernelIdeal.Gen Cert.TokMlp
open Idealize.ShloMosaic Idealize.ShloMosaic.TcCoe Idealize.SL.Sem Idealize.ShloMosaic.ValueIdx

variable (m : (ℓ : Loc nD τ sig) → Buf (Elt Ideal) ℓ)

/-- Row j of the flattened features is position (j / 4096, j % 4096)'s feature vector. -/
theorem featArr_apply (c : Dev nD) (j : Fin 65536) (h : Fin 768) :
    featArr m c (ix2 j h) = featIn m c (ix3 (rowB j) (rowS j) h) := by
  rw [featArr_eq]
  exact shapeCast_apply _ shapeCasts_S16x4096x768_S65536x768 (ix2 j h) (ix3 (rowB j) (rowS j) h) (by
    rw [Shape.rowMajor_val_three, Shape.rowMajor_val_two]
    show (j.val / 4096 * 4096 + j.val % 4096) * 768 + h.val = j.val * 768 + h.val
    omega)

/-- The start index of row j's take: position (j / 4096, j % 4096)'s token id, clipped, then wrapped if negative. -/
theorem start_apply (c : Dev nD) (j : Fin 65536) :
    startCol m c (ix2 j (0 : Fin 1)) = wrapNeg (clipTok (tkIn m c (ix2 (rowB j) (rowS j)))) := by
  have hcast : shapeCast S65536 (tkIn m c) shapeCasts_S16x4096_S65536 (ix1 j) = tkIn m c (ix2 (rowB j) (rowS j)) :=
    shapeCast_apply _ shapeCasts_S16x4096_S65536 (ix1 j) (ix2 (rowB j) (rowS j)) (by
      rw [Shape.rowMajor_val_two, Shape.rowMajor_val_one]
      show j.val / 4096 * 4096 + j.val % 4096 = j.val
      omega)
  refine (broadcastInDim_apply _ bcast_S65536_S65536x1_0 _ (ix2 j (0 : Fin 1)) (ix1 j) (fun a => match a with
    | ⟨0, _⟩ => by show j.val = if (65536 : Nat) = 1 then 0 else j.val; rw [if_neg (by decide)])).trans ?_
  show wrapNeg (clipTok (shapeCast S65536 (tkIn m c) shapeCasts_S16x4096_S65536 (ix1 j))) = _
  rw [hcast]

/-- The row take at (j, k), given the start index of row j. -/
theorem gather_entry (X : FVec Ideal S32000x128 .f32) (I : IVec S65536x1 32) (j : Fin 65536) (k : Fin 128) (v : BitVec 32)
    (hv : I (ix2 j (0 : Fin 1)) = v) :
    Host.gather gather_S32000x128_S65536x1_S65536x128_1_0_n_n_0_1_1128 X I (ix2 j k) = X (ix2 (clampRow v) k) := by
  subst hv
  exact Cert.Lib.gather_rows gather_S32000x128_S65536x1_S65536x128_1_0_n_n_0_1_1128 rfl rfl rfl rfl rfl X I j k (by decide)

/-- ROW j OF THE GATHERED EMBEDDINGS is the table row that position (j / 4096, j % 4096)'s clipped token id selects. -/
theorem embArr_apply (c : Dev nD) (j : Fin 65536) (k : Fin 128) :
    embArr m c (ix2 j k) = tableIn m c (embIdx (clampRow (wrapNeg (clipTok (tkIn m c (ix2 (rowB j) (rowS j)))))) k) := by
  rw [embArr_eq, gather_entry _ _ j k _ (start_apply m c j)]
  exact extractStridedSlice_apply ![0, 0] _ slices_S32768x128_S32000x128_0_0 _ (embIdx _ k) (fun a => match a with
    | ⟨0, _⟩ => (Nat.zero_add _).symm
    | ⟨1, _⟩ => (Nat.zero_add _).symm)

/-- The hidden weights are the table's last 768 rows. -/
theorem hidArr_apply (c : Dev nD) (h : Fin 768) (k : Fin 128) : hidArr m c (ix2 h k) = tableIn m c (hidIdx h k) := by
  rw [hidArr_eq]
  exact extractStridedSlice_apply ![32000, 0] _ slices_S32768x128_S768x128_32000_0 (ix2 h k) (hidIdx h k) (fun a => match a with
    | ⟨0, _⟩ => rfl
    | ⟨1, _⟩ => (Nat.zero_add _).symm)

/-- The hidden bias as a row. -/
theorem bias1Arr_apply (c : Dev nD) (k : Fin 128) : bias1Arr m c (ix2 (0 : Fin 1) k) = bias1In m c (ix1 k) := by
  rw [bias1Arr_eq]
  exact shapeCast_a_1a_apply _ shapeCasts_S128_S1x128 0 k

/-- The projection column as a row. -/
theorem projArr_apply (c : Dev nD) (k : Fin 128) : projArr m c (ix2 (0 : Fin 1) k) = projIn m c (ix2 k (0 : Fin 1)) := by
  rw [projArr_eq]
  exact transpose_ix2_apply _ transposes_S128x1_S1x128_1_0 0 k

/-- The projection bias as a [1 × 1] entry. -/
theorem bias2Arr_apply (c : Dev nD) : bias2Arr m c (ix2 (0 : Fin 1) (0 : Fin 1)) = bias2In m c (ix1 (0 : Fin 1)) := by
  rw [bias2Arr_eq]
  exact shapeCast_a_1a_apply _ shapeCasts_S1_S1x1 0 0

end Cert.TokMlp.Ker

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.Payload.lean ====
/-
  The kernel body at one grid point, read at a row.

  The body takes a [2048 × 768] block of feature rows, the matching [2048 × 128] block of gathered embedding rows, the
  [768 × 128] hidden weights, the hidden bias and the projection weights as [1 × 128] rows and the projection bias as a
  [1 × 1] entry; it multiplies the features by the hidden weights (narrowing both to a shorter float format first, which
  is the identity on the extended reals), adds the embeddings and the bias, cuts below at zero, multiplies by the
  projection row, sums each row and adds the projection bias. Entry r of the [2048] result is the function `cell`.
-/
import proofs.«423203_j14602888806638_3_alg».proof.Proof.Gen.KernelIdeal.Skeleton
import proofs.«423203_j14602888806638_3_alg».proof.Proof.Spec
import proofs.«423203_j14602888806638_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.TokMlp.Ker

open Cert.KernelIdeal Cert.KernelIdeal.Gen Cert.TokMlp
open Idealize.ShloMosaic Idealize.ShloMosaic.ValueIdx

/-! ## The block's matrix product at an entry -/

theorem lhs_mm_0 (i : S2048x128.Idx) (q : dot_S2048x768_S768x128_S2048x128_1_0_0_1_n_n.contr.Idx) :
    (dot_S2048x768_S768x128_S2048x128_1_0_0_1_n_n.lhsIdx i q 0).val = (i 0).val := by
  unfold DotDims.lhsIdx
  rw [dif_neg (show ¬(0 : Fin S2048x768.rank) ∈ dot_S2048x768_S768x128_S2048x128_1_0_0_1_n_n.lhsBatch by decide), dif_pos (show (0 : Fin S2048x768.rank) ∈ dot_S2048x768_S768x128_S2048x128_1_0_0_1_n_n.lhsNonContracting by decide)]
  rfl
theorem lhs_mm_1 (i : S2048x128.Idx) (q : dot_S2048x768_S768x128_S2048x128_1_0_0_1_n_n.contr.Idx) :
    (dot_S2048x768_S768x128_S2048x128_1_0_0_1_n_n.lhsIdx i q 1).val = (q ⟨0, by decide⟩).val :=
  dot_S2048x768_S768x128_S2048x128_1_0_0_1_n_n.lhsIdx_val_of_single rfl i q
theorem rhs_mm_0 (i : S2048x128.Idx) (q : dot_S2048x768_S768x128_S2048x128_1_0_0_1_n_n.contr.Idx) :
    (dot_S2048x768_S768x128_S2048x128_1_0_0_1_n_n.rhsIdx i q 0).val = (q ⟨0, by decide⟩).val :=
  dot_S2048x768_S768x128_S2048x128_1_0_0_1_n_n.rhsIdx_val_of_single rfl i q
theorem rhs_mm_1 (i : S2048x128.Idx) (q : dot_S2048x768_S768x128_S2048x128_1_0_0_1_n_n.contr.Idx) :
    (dot_S2048x768_S768x128_S2048x128_1_0_0_1_n_n.rhsIdx i q 1).val = (i 1).val := by
  unfold DotDims.rhsIdx
  rw [dif_neg (show ¬(1 : Fin S768x128.rank) ∈ dot_S2048x768_S768x128_S2048x128_1_0_0_1_n_n.rhsBatch by decide), dif_pos (show (1 : Fin S768x128.rank) ∈ dot_S2048x768_S768x128_S2048x128_1_0_0_1_n_n.rhsNonContracting by decide)]
  rfl

/-- The product of a [2048 × 768] block with the [768 × 128] hidden weights, into a zero accumulator, at (r, k): the sum
    over the 768 features of the row's entry times the weight. -/
theorem mm_apply {φ₁ φ₂ : FTy} (A : FVec Ideal S2048x768 φ₁) (B : FVec Ideal S768x128 φ₂) (r : Fin 2048) (k : Fin 128) :
    matmul dot_S2048x768_S768x128_S2048x128_1_0_0_1_n_n none A B (constant S2048x128 .f32 0x00000000#32) (ix2 r k)
      = ∑ h : Fin 768, A (ix2 r h) * B (ix2 h k) := by
  simp only [matmul]
  rw [Ideal.matmul_constant_zero_apply, ← Equiv.sum_comp (ValueIdx.contrEquiv1 dot_S2048x768_S768x128_S2048x128_1_0_0_1_n_n 768 rfl rfl).symm]
  refine Finset.sum_congr rfl fun h _ => ?_
  have hk := ValueIdx.contrEquiv1_symm_val dot_S2048x768_S768x128_S2048x128_1_0_0_1_n_n 768 rfl rfl h
  have el : dot_S2048x768_S768x128_S2048x128_1_0_0_1_n_n.lhsIdx (ix2 r k) ((ValueIdx.contrEquiv1 dot_S2048x768_S768x128_S2048x128_1_0_0_1_n_n 768 rfl rfl).symm h) = ix2 r h := funext fun a => Fin.ext (by
    match a with
    | ⟨0, _⟩ => exact lhs_mm_0 _ _
    | ⟨1, _⟩ => exact (lhs_mm_1 _ _).trans hk)
  have er : dot_S2048x768_S768x128_S2048x128_1_0_0_1_n_n.rhsIdx (ix2 r k) ((ValueIdx.contrEquiv1 dot_S2048x768_S768x128_S2048x128_1_0_0_1_n_n 768 rfl rfl).symm h) = ix2 h k := funext fun a => Fin.ext (by
    match a with
    | ⟨0, _⟩ => exact (rhs_mm_0 _ _).trans hk
    | ⟨1, _⟩ => exact rhs_mm_1 _ _)
  rw [el, er]

/-! ## The body's payload at a row -/

/-- THE PAYLOAD AT ROW r of a block: `cell` of the block's gathered embedding row, its feature row, the hidden weights, the
    two bias rows' entries and the projection row. The body adds the matrix product and the embedding in the other
    order, which is the same sum. -/
theorem pay_apply (x0 : Vec Ideal S2048x768 .f32) (x2 : Vec Ideal S768x128 .f32) (x1 : Vec Ideal S2048x128 .f32)
    (x3 x4 : Vec Ideal S1x128 .f32) (x5 : Vec Ideal S1x1 .f32) (r : Fin 2048) :
    k0_pay1 (F := Ideal) x0 x2 x1 x3 x4 x5 (ix1 r)
      = cell (fun k => x1 (ix2 r k)) (fun h => x0 (ix2 r h)) (fun h k => x2 (ix2 h k)) (fun k => x3 (ix2 0 k))
          (fun k => x4 (ix2 0 k)) (x5 (ix2 0 0)) := by
  unfold k0_pay1 cell
  dsimp only
  refine (shapeCast_apply _ shapeCasts_S2048x1_S2048 (ix1 r) (ix2 r (0 : Fin 1)) (by
    rw [Shape.rowMajor_val_two, Shape.rowMajor_val_one]
    show r.val * 1 + 0 = r.val
    omega)).trans ?_
  rw [addf_apply, Cert.Keepdims.shapeCast_a_a1_apply, Cert.Keepdims.add_rows_f32, broadcastTo_1b_ab_apply]
  simp only [shapeCast_self]
  refine congrArg (· + x5 (ix2 0 0)) (Finset.sum_congr rfl fun k _ => ?_)
  rw [mulf_apply, maximumf_apply, addf_apply, addf_apply, mm_apply, broadcastTo_1b_ab_apply, broadcastTo_1b_ab_apply,
    broadcast_apply]
  simp only [truncf_apply, shapeCast_self, Ideal.ofBits_def, Ideal.ofBits_zero_f32]
  rw [add_comm (x1 (ix2 r k) : EReal) _]

end Cert.TokMlp.Ker

end
-- ==== Proof.Blocks.lean ====
/-
  From the grid's blocks to the whole flat result.

  The grid has 32 points; point t takes rows 2048·t … 2048·t + 2047 of the flattened features and of the gathered
  embeddings, the whole of the four small operands, and writes rows 2048·t … 2048·t + 2047 of the flat [65536] result.
  Row y of what point t writes is `cell` of flat row 2048·t + y's ingredients, so every point writes its block of ONE
  function of the arguments (`flatOut`); the 32 blocks tile the flat result, which therefore ends holding that function.
-/
import proofs.«423203_j14602888806638_3_alg».proof.Proof.EntryRead
import proofs.«423203_j14602888806638_3_alg».proof.Proof.Payload

noncomputable section

namespace Cert.TokMlp.Ker

open Cert.KernelIdeal Cert.KernelIdeal.Gen Cert.TokMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The flat result: entry j is the result at position (j / 4096, j % 4096), a token id selecting its row after the clip. -/
def flatOut (c : Dev nD) : FVec Ideal S65536 .f32 := fun j =>
  out (fun v => clampRow (wrapNeg (clipTok v))) (tkIn m c) (featIn m c) (tableIn m c) (bias1In m c) (projIn m c) (bias2In m c)
    (ix2 (rowB (j 0)) (rowS (j 0)))

/-! ## The blocks of the windows at a point -/

/-- Each input window's block at point t, at its literal type. -/
abbrev featBlk (c : Dev nD) (t : Fin cfg0.N) : Vec Ideal S2048x768 .f32 := iblk m c 0 t
abbrev embBlk (c : Dev nD) (t : Fin cfg0.N) : Vec Ideal S2048x128 .f32 := iblk m c 1 t
abbrev hidBlk (c : Dev nD) (t : Fin cfg0.N) : Vec Ideal S768x128 .f32 := iblk m c 2 t
abbrev bias1Blk (c : Dev nD) (t : Fin cfg0.N) : Vec Ideal S1x128 .f32 := iblk m c 3 t
abbrev projBlk (c : Dev nD) (t : Fin cfg0.N) : Vec Ideal S1x128 .f32 := iblk m c 4 t
abbrev bias2Blk (c : Dev nD) (t : Fin cfg0.N) : Vec Ideal S1x1 .f32 := iblk m c 5 t

/-- Flat row 2048·t + y: row y of point t's block. -/
abbrev rowAt (t : Fin cfg0.N) (y : Fin 2048) : Fin 65536 :=
  ⟨t.val * 2048 + y.val, by have h1 := t.isLt; have h2 : cfg0.N = 32 := N_0; have h3 := y.isLt; omega⟩

/-- The printed index maps over the grid: the two row-blocked inputs and the output are at block t, the four small
    operands at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = t.val :=
  (by decide +kernel : ∀ t : Fin grid0.N, _)

theorem featBlk_apply (c : Dev nD) (t : Fin cfg0.N) (y : Fin 2048) (h : Fin 768) :
    featBlk m c t (ix2 y h) = featArr m c (ix2 (rowAt t y) h) := by
  obtain ⟨e0, e1, -⟩ := idx_facts t
  show V m c main_v2 (((cfg0.win 0).blk t).view.emb (ix2 y h)) = V m c main_v2 (ix2 (rowAt t y) h)
  refine congrArg (V m c main_v2) (funext fun a => Fin.ext ?_)
  match a with
  | ⟨0, _⟩ => show win0_0.index t (0 : Fin 2) * 2048 + 1 * y.val = t.val * 2048 + y.val; rw [e0]; omega
  | ⟨1, _⟩ => show win0_0.index t (1 : Fin 2) * 768 + 1 * h.val = h.val; rw [e1]; omega

theorem embBlk_apply (c : Dev nD) (t : Fin cfg0.N) (y : Fin 2048) (k : Fin 128) :
    embBlk m c t (ix2 y k) = embArr m c (ix2 (rowAt t y) k) := by
  obtain ⟨-, -, e0, e1, -⟩ := idx_facts t
  show V m c main_v11 (((cfg0.win 1).blk t).view.emb (ix2 y k)) = V m c main_v11 (ix2 (rowAt t y) k)
  refine congrArg (V m c main_v11) (funext fun a => Fin.ext ?_)
  match a with
  | ⟨0, _⟩ => show win0_1.index t (0 : Fin 2) * 2048 + 1 * y.val = t.val * 2048 + y.val; rw [e0]; omega
  | ⟨1, _⟩ => show win0_1.index t (1 : Fin 2) * 128 + 1 * k.val = k.val; rw [e1]; omega

theorem hidBlk_apply (c : Dev nD) (t : Fin cfg0.N) (h : Fin 768) (k : Fin 128) :
    hidBlk m c t (ix2 h k) = hidArr m c (ix2 h k) := by
  obtain ⟨-, -, -, -, e0, e1, -⟩ := idx_facts t
  show V m c main_v4 (((cfg0.win 2).blk t).view.emb (ix2 h k)) = V m c main_v4 (ix2 h k)
  refine congrArg (V m c main_v4) (funext fun a => Fin.ext ?_)
  match a with
  | ⟨0, _⟩ => show win0_2.index t (0 : Fin 2) * 768 + 1 * h.val = h.val; rw [e0]; omega
  | ⟨1, _⟩ => show win0_2.index t (1 : Fin 2) * 128 + 1 * k.val = k.val; rw [e1]; omega

theorem bias1Blk_apply (c : Dev nD) (t : Fin cfg0.N) (u : Fin 1) (k : Fin 128) :
    bias1Blk m c t (ix2 u k) = bias1Arr m c (ix2 u k) := by
  obtain ⟨-, -, -, -, -, -, e0, e1, -⟩ := idx_facts t
  show V m c main_v12 (((cfg0.win 3).blk t).view.emb (ix2 u k)) = V m c main_v12 (ix2 u k)
  refine congrArg (V m c main_v12) (funext fun a => Fin.ext ?_)
  match a with
  | ⟨0, _⟩ => show win0_3.index t (0 : Fin 2) * 1 + 1 * u.val = u.val; rw [e0]; omega
  | ⟨1, _⟩ => show win0_3.index t (1 : Fin 2) * 128 + 1 * k.val = k.val; rw [e1]; omega

theorem projBlk_apply (c : Dev nD) (t : Fin cfg0.N) (u : Fin 1) (k : Fin 128) :
    projBlk m c t (ix2 u k) = projArr m c (ix2 u k) := by
  obtain ⟨-, -, -, -, -, -, -, -, e0, e1, -⟩ := idx_facts t
  show V m c main_v13 (((cfg0.win 4).blk t).view.emb (ix2 u k)) = V m c main_v13 (ix2 u k)
  refine congrArg (V m c main_v13) (funext fun a => Fin.ext ?_)
  match a with
  | ⟨0, _⟩ => show win0_4.index t (0 : Fin 2) * 1 + 1 * u.val = u.val; rw [e0]; omega
  | ⟨1, _⟩ => show win0_4.index t (1 : Fin 2) * 128 + 1 * k.val = k.val; rw [e1]; omega

theorem bias2Blk_apply (c : Dev nD) (t : Fin cfg0.N) (u v : Fin 1) :
    bias2Blk m c t (ix2 u v) = bias2Arr m c (ix2 u v) := by
  obtain ⟨-, -, -, -, -, -, -, -, -, -, e0, e1, -⟩ := idx_facts t
  show V m c main_v14 (((cfg0.win 5).blk t).view.emb (ix2 u v)) = V m c main_v14 (ix2 u v)
  refine congrArg (V m c main_v14) (funext fun a => Fin.ext ?_)
  match a with
  | ⟨0, _⟩ => show win0_5.index t (0 : Fin 2) * 1 + 1 * u.val = u.val; rw [e0]; omega
  | ⟨1, _⟩ => show win0_5.index t (1 : Fin 2) * 1 + 1 * v.val = v.val; rw [e1]; omega

/-! ## What a point writes back -/

theorem hz1 : (![0] : Fin 1 → Nat) = fun _ => 0 := funext fun a => by fin_cases a; rfl
theorem hz2 : (![0, 0] : Fin 2 → Nat) = fun _ => 0 := funext fun a => by fin_cases a <;> rfl

/-- Row y of what point t's body leaves is the flat result at row 2048·t + y. -/
theorem body_row (c : Dev nD) (t : Fin cfg0.N) (y : Fin 2048) :
    k0_pay1 (F := Ideal) (featBlk m c t) (hidBlk m c t) (embBlk m c t) (bias1Blk m c t) (projBlk m c t) (bias2Blk m c t) (ix1 y)
      = flatOut m c (ix1 (rowAt t y)) := by
  rw [pay_apply]
  unfold flatOut out
  refine congr (congr (congr (congr (congr (congrArg cell (funext fun k => ?_)) (funext fun h => ?_))
    (funext fun h => funext fun k => ?_)) (funext fun k => ?_)) (funext fun k => ?_)) ?_
  · exact (embBlk_apply m c t y k).trans (embArr_apply m c _ k)
  · exact (featBlk_apply m c t y h).trans (featArr_apply m c _ h)
  · exact (hidBlk_apply m c t h k).trans (hidArr_apply m c h k)
  · exact (bias1Blk_apply m c t 0 k).trans (bias1Arr_apply m c k)
  · exact (projBlk_apply m c t 0 k).trans (projArr_apply m c k)
  · exact (bias2Blk_apply m c t 0 0).trans (bias2Arr_apply m c)

/-- WHAT POINT t WRITES BACK is block t of the flat result. -/
theorem flushed_eq (c : Dev nD) (t : Fin cfg0.N) :
    (dats m 0 c).flushed 6 t = ((cfg0.win 6).blk t).view.read (Elt Ideal) (flatOut m c) := by
  show (cfg0.win 6).cut (grid0.coords t) ((dats m 0 c).after 6 t) = _
  rw [after0_6]
  unfold out0_6
  rw [View.canon_unit_zero hz1]
  simp only [View.ld_unit_zero (S := S2048x768) hz2, View.ld_unit_zero (S := S768x128) hz2, View.ld_unit_zero (S := S2048x128) hz2,
    View.ld_unit_zero (S := S1x128) hz2, View.ld_unit_zero (S := S1x1) hz2]
  funext j
  obtain ⟨y, rfl⟩ : ∃ y : Fin 2048, j = ix1 y := ⟨j 0, eq_ix1 j⟩
  obtain ⟨-, -, -, -, -, -, -, -, -, -, -, -, e6⟩ := idx_facts t
  have hemb : ((cfg0.win 6).blk t).view.emb (ix1 y) = ix1 (rowAt t y) := by
    funext a; apply Fin.ext
    match a with
    | ⟨0, _⟩ => show win0_6.index t (0 : Fin 1) * 2048 + 1 * y.val = t.val * 2048 + y.val; rw [e6]; omega
  show k0_pay1 (F := Ideal) (featBlk m c t) (hidBlk m c t) (embBlk m c t) (bias1Blk m c t) (projBlk m c t) (bias2Blk m c t) (ix1 y)
    = flatOut m c (((cfg0.win 6).blk t).view.emb (ix1 y))
  rw [hemb]
  exact body_row m c t y

/-! ## The cover, and the array after the run -/

/-- An index of the flat result is in point t's block iff it lies in rows 2048·t … 2048·t + 2047. -/
theorem mem_blk (t : Fin cfg0.N) (i : S65536.Idx) :
    i ∈ ((cfg0.win 6).blk t).view.set ↔ ∀ a : Fin 1, win0_6.index t a * S2048.size a ≤ (i a).val ∧ (i a).val < win0_6.index t a * S2048.size a + S2048.size a := by
  show i ∈ ((View.whole main_v15).slice (win0_6.rect t)).set ↔ _
  rw [View.set_slice_whole, Rect.mem_set_unit]
  exact Iff.rfl

/-- Every row of the flat result is in the block of the point its quotient by 2048 names. -/
theorem cover (i : S65536.Idx) : ∃ t : Fin cfg0.N, (cfg0.win 6).flush t = true ∧ i ∈ ((cfg0.win 6).blk t).view.set := by
  have hi : (i 0).val < 65536 := (i 0).isLt
  have hN : cfg0.N = 32 := N_0
  refine ⟨⟨(i 0).val / 2048, by rw [hN]; omega⟩, flush0_6 _, ?_⟩
  rw [mem_blk]
  intro a
  obtain ⟨-, -, -, -, -, -, -, -, -, -, -, -, e6⟩ := idx_facts ⟨(i 0).val / 2048, by rw [hN]; omega⟩
  match a with
  | ⟨0, _⟩ =>
    show win0_6.index ⟨(i 0).val / 2048, _⟩ (0 : Fin 1) * 2048 ≤ (i 0).val
      ∧ (i 0).val < win0_6.index ⟨(i 0).val / 2048, _⟩ (0 : Fin 1) * 2048 + 2048
    rw [e6]
    show (i 0).val / 2048 * 2048 ≤ (i 0).val ∧ (i 0).val < (i 0).val / 2048 * 2048 + 2048
    omega

/-- THE FLAT RESULT after the run is `flatOut`. -/
theorem final (c : Dev nD) : (dats m 0 c).arrAt 6 cfg0.N = flatOut m c :=
  (dats m 0 c).arrAt_eq_of_cover 6 (flatOut m c) (fun t _ => flushed_eq m c t) cover

end Cert.TokMlp.Ker

end
-- ==== Proof.KernelRun.lean ====
/-
  The idealized kernel's run, read: its result array ends at the function `out` of the arguments (a token id selecting
  its embedding row after the clip), and the arguments end unchanged.

  After the region the program reshapes the flat [65536] result to [16 × 4096]: entry (b, s) is flat row 4096·b + s,
  whose position is (b, s) again.
-/
import proofs.«423203_j14602888806638_3_alg».proof.Proof.Blocks
import Idealize.ShloMosaic.Lib.StableHlo.Run

noncomputable section

namespace Cert.TokMlp.Ker

open Cert.KernelIdeal Cert.KernelIdeal.Gen Cert.TokMlp
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result, with the kernel's way of selecting a row: clip, then wrap, then the clamped read. -/
abbrev result (c : Dev nD) : FVec Ideal S16x4096 .f32 :=
  out (fun v => clampRow (wrapNeg (clipTok v))) (tkIn m c) (featIn m c) (tableIn m c) (bias1In m c) (projIn m c) (bias2In m c)

/-- The flat result reshaped to [16 × 4096] is `result`: flat row 4096·b + s is position (b, s). -/
theorem reshape_flat (c : Dev nD) : shapeCast S16x4096 (flatOut m c) shapeCasts_S65536_S16x4096 = result m c := by
  funext i
  obtain ⟨b, s, rfl⟩ : ∃ (b : Fin 16) (s : Fin 4096), i = ix2 b s := ⟨i 0, i 1, eq_ix2 i⟩
  have hb : b.val < 16 := b.isLt
  have hs : s.val < 4096 := s.isLt
  refine (shapeCast_apply _ shapeCasts_S65536_S16x4096 (ix2 b s) (ix1 (⟨b.val * 4096 + s.val, by omega⟩ : Fin 65536)) (by
    rw [Shape.rowMajor_val_one, Shape.rowMajor_val_two]
    rfl)).trans ?_
  have eb : rowB (⟨b.val * 4096 + s.val, by omega⟩ : Fin 65536) = b := Fin.ext (by show (b.val * 4096 + s.val) / 4096 = b.val; omega)
  have es : rowS (⟨b.val * 4096 + s.val, by omega⟩ : Fin 65536) = s := Fin.ext (by show (b.val * 4096 + s.val) % 4096 = s.val; omega)
  show out _ _ _ _ _ _ _ (ix2 (rowB (⟨b.val * 4096 + s.val, _⟩ : Fin 65536)) (rowS (⟨b.val * 4096 + s.val, _⟩ : Fin 65536))) = _
  rw [eb, es]

/-- The result buffer as the host line after the region leaves it, at its literal type. -/
abbrev tailOut (c : Dev nD) : FVec Ideal S16x4096 .f32 := Pipeline.afterTail₀ cfgs (dats m) 0 (V0 m) [hostOps1] c main_v16

/-- The line after the region reshapes the flat result, so the result buffer ends at `result`. -/
theorem tail_eq (c : Dev nD) : tailOut m c = result m c := by
  have e : Pipeline.withArrays (cfgs 0).spec c (V0 m c) (fun w => (dats m 0 c).arrAt w (cfgs 0).N) (Proc.devRef .tc main_v15)
      = flatOut m c := (Pipeline.withArrays_arr spec0 launch0.win.arr_inj c _ _ 6).trans (final m c)
  refine Eq.trans ?_ (reshape_flat m c)
  show Pipeline.afterTail₀ cfgs (dats m) 0 (V0 m) [hostOps1] c main_v16 = _
  unfold Pipeline.afterTail₀
  show StableHlo.after hostOps1 _ (Proc.devRef .tc main_v16) = _
  after_results
  rw [e]
  rfl

/-- THE RUN, READ: every weakly fair execution terminates with the result buffer at `result` and the arguments as launched. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.TokMlp.Ker

end
-- ==== Proof.LibGatherRows3.lean ====
/-
  A row take from a rank-2 table at a rank-3 array of positions, read at an index.

  The row take `table[idx]` over an [N × C] table and an [a × b] array of positions is a `stablehlo.gather` whose
  start indices are the positions with a trailing unit axis, [a × b × 1]: the table's axis 0 is collapsed and
  start-indexed, its axis 1 is the result's one offset axis (a whole row is the slice), there are no batching axes,
  and the index vector lies on the last axis of the start indices. The result is [a × b × C]; this file reads it at
  a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE AT AN [a × b] ARRAY OF POSITIONS. A gather from an [N × C] table at [a × b × 1] start indices, the
    table's axis 0 collapsed and start-indexed, the result's axis 2 its one offset axis, no batching axes and the
    index vector on axis 2 (`hoff` … `hivd`: the dimension numbers, each by `rfl` at a literal record): the result's
    entry (p, q, k) is the table's entry (r, k), where the row r is position (p, q)'s start index read SIGNED and
    CLAMPED into the table (a negative index reads row 0, one past the end reads the last row). -/
theorem gather_rows3 {α : Type} {N C a b w : Nat}
    (d : GatherDims ⟨2, ![N, C]⟩ ⟨3, ![a, b, 1]⟩ ⟨3, ![a, b, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![a, b, 1]⟩ w) (p : Fin a) (q : Fin b) (k : Fin C) (hN : 0 < N) :
    Host.gather d x idx (ix3 p q k) = x (ix2 ⟨min (idx (ix3 p q 0)).toInt.toNat (N - 1), by omega⟩ k) := by
  unfold Host.gather
  congr 1
  -- the result's batch axes are 0 and 1, and so are the start indices' axes but the index vector's
  have hbd : d.batchDims = [0, 1] := by
    show Shape.kept _ d.offsetDims = _
    rw [hoff]; rfl
  have hsk : d.siKept = [0, 1] := by
    show (List.finRange 3).filter (fun y : Fin 3 => decide (y.val ≠ d.indexVectorDim)) = _
    rw [hivd]; rfl
  have pick0 : ∀ (l₁ l₂ : List (Fin 3)), l₁ = [0, 1] → l₂ = [0, 1] → ∀ (z : Fin 3), z.val = 0 →
      ∀ h, l₁[l₂.idxOf z]'h = 0 := by
    intro l₁ l₂ h₁ h₂ z hz; subst h₁ h₂; obtain rfl : z = 0 := Fin.ext hz; intro _; rfl
  have pick1 : ∀ (l₁ l₂ : List (Fin 3)), l₁ = [0, 1] → l₂ = [0, 1] → ∀ (z : Fin 3), z.val = 1 →
      ∀ h, l₁[l₂.idxOf z]'h = 1 := by
    intro l₁ l₂ h₁ h₂ z hz; subst h₁ h₂; obtain rfl : z = 1 := Fin.ext hz; intro _; rfl
  have hoffAll : ∀ y ∈ d.offsetDims, y = 2 := by
    intro y hy; rw [hoff] at hy; exact List.mem_singleton.1 hy
  have hb : ∀ ax : Fin 2, ax ∉ d.operandBatchingDims := by intro ax; rw [hob]; exact List.not_mem_nil
  funext ax
  apply Fin.ext
  match ax with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix3 p q k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix3 p q 0)).toInt.toNat (N - 1)
    rw [hsl]
    congr 3
    congr 1
    funext bx
    match bx with
    | ⟨0, hb0⟩ =>
      unfold GatherDims.siIdx
      rw [dif_neg (by rw [hivd]; simp)]
      unfold GatherDims.siCoord
      apply Fin.ext
      simp only [Fin.val_cast]
      rw [pick0 _ _ hbd hsk ⟨0, hb0⟩ rfl]
    | ⟨1, hb1⟩ =>
      unfold GatherDims.siIdx
      rw [dif_neg (by rw [hivd]; simp)]
      unfold GatherDims.siCoord
      apply Fin.ext
      simp only [Fin.val_cast]
      rw [pick1 _ _ hbd hsk ⟨1, hb1⟩ rfl]
    | ⟨2, _⟩ =>
      unfold GatherDims.siIdx
      rw [dif_pos (by rw [hivd])]
      apply Fin.ext
      show List.idxOf (0 : Fin 2) d.startIndexMap = 0
      rw [hsim]; simp
  | ⟨1, _⟩ =>
    -- axis 1: not start-indexed, no batching; the offset coordinate is the result's last coordinate
    have hk : (1 : Fin 2) ∈ d.sKept := by rw [GatherDims.mem_sKept, hcoll]; exact ⟨by simp, hb 1⟩
    have hm : (1 : Fin 2) ∉ d.startIndexMap := by rw [hsim]; simp
    show (d.operandIdx (ix3 p q k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.RefValue.lean ====
/-
  The reference, read at an index: entry (b, s) of its result is `cell` of the embedding row that token (b, s)'s id
  selects (the id wrapped if negative, the read clamped into the table), the features of position (b, s), the hidden
  weights (the table's last 768 rows), the two biases and the projection column — the function `out`.

  The reference's operations are read one at a time by the generated index lemmas; the one operation they leave,
  the row take of the embeddings, is read by the row-take lemma for a rank-3 array of positions.
-/
import proofs.«423203_j14602888806638_3_alg».proof.Proof.Gen.ReferenceIdeal.Read
import proofs.«423203_j14602888806638_3_alg».proof.Proof.Spec
import proofs.«423203_j14602888806638_3_alg».proof.Proof.LibGatherRows3

noncomputable section

namespace Cert.TokMlp.Ref

open Cert.ReferenceIdeal Cert.ReferenceIdeal.Gen Cert.ReferenceIdeal.Read Cert.TokMlp
open Idealize.ShloMosaic Idealize.ShloMosaic.ValueIdx

/-- The start index the row take reads for position (b, s): the token id, wrapped by the table's length if negative. -/
theorem start_apply (x0 : (⟨S16x4096, .i32⟩ : BufTy).Contents (Elt Ideal)) (b : Fin 16) (s : Fin 4096) :
    val_main_v6 (F := Ideal) x0 (ix3 b s 0) = wrapNeg (x0 (ix2 b s)) := by
  have e : idx_main_v6 (ix3 b s (0 : Fin 1)) = ix2 b s := funext fun a => Fin.ext (by
    match a with
    | ⟨0, _⟩ => rfl
    | ⟨1, _⟩ => rfl)
  rw [val_main_v6_apply, e, val_main_v5_apply, val_main_v2_apply, val_main_v4_apply, val_main_v1_apply, val_main_v3_apply,
    val_main_c_apply, val_main_c_0_apply]
  rfl

/-- THE GATHERED EMBEDDING at (b, s, k): column k of the table row the token's id selects. -/
theorem emb_apply (x0 : (⟨S16x4096, .i32⟩ : BufTy).Contents (Elt Ideal)) (x2 : (⟨S32768x128, .f32⟩ : BufTy).Contents (Elt Ideal))
    (b : Fin 16) (s : Fin 4096) (k : Fin 128) :
    val_main_v7 (F := Ideal) x0 x2 (ix3 b s k) = x2 (embIdx (clampRow (wrapNeg (x0 (ix2 b s)))) k) := by
  unfold val_main_v7
  rw [Cert.Lib.gather_rows3 gather_S32000x128_S16x4096x1_S16x4096x128_2_0_n_n_0_2_1128 rfl rfl rfl rfl rfl _ _ b s k
    (by decide), val_main_v0_apply]
  refine congrArg x2 (funext fun a => Fin.ext ?_)
  match a with
  | ⟨0, _⟩ =>
    show min (val_main_v6 (F := Ideal) x0 (ix3 b s 0)).toInt.toNat (32000 - 1) = min (wrapNeg (x0 (ix2 b s))).toInt.toNat 31999
    rw [start_apply]
  | ⟨1, _⟩ => rfl

/-- THE HIDDEN VECTOR at (b, s, k): the embedding, plus the features' product with the hidden weights, plus the bias,
    cut below at zero. -/
theorem hidden_apply (x0 : (⟨S16x4096, .i32⟩ : BufTy).Contents (Elt Ideal)) (x1 : (⟨S16x4096x768, .f32⟩ : BufTy).Contents (Elt Ideal))
    (x2 : (⟨S32768x128, .f32⟩ : BufTy).Contents (Elt Ideal)) (x3 : (⟨S128, .f32⟩ : BufTy).Contents (Elt Ideal))
    (b : Fin 16) (s : Fin 4096) (k : Fin 128) :
    val_main_v14 (F := Ideal) x0 x1 x2 x3 (ix3 b s k)
      = max ((x2 (embIdx (clampRow (wrapNeg (x0 (ix2 b s)))) k) + ∑ h : Fin 768, x1 (ix3 b s h) * x2 (hidIdx h k)) + x3 (ix1 k)) 0 := by
  rw [val_main_v14_apply, val_main_v13_apply, val_main_v10_apply, emb_apply, val_main_v9_apply, val_main_v12_apply,
    val_main_v11_apply, val_main_call0_v0_apply, val_main_call0_cst_apply]
  show max ((_ + _) + _) (Ideal.ofBits .f32 0x00000000#32) = _
  rw [Ideal.ofBits_zero_f32]
  have el : ∀ h : Fin 768, lidx_main_v9 (ix3 b s k) h = ix3 b s h := fun h => funext fun a => Fin.ext (by
    match a with
    | ⟨0, _⟩ => rfl
    | ⟨1, _⟩ => rfl
    | ⟨2, _⟩ => rfl)
  have er : ∀ h : Fin 768, idx_main_v8 (ridx_main_v9 (ix3 b s k) h) = hidIdx h k := fun h => funext fun a => Fin.ext (by
    match a with
    | ⟨0, _⟩ => rfl
    | ⟨1, _⟩ => rfl)
  have eb : idx_main_v11 (idx_main_v12 (ix3 b s k)) = ix1 k := funext fun a => Fin.ext (by
    match a with
    | ⟨0, _⟩ => rfl)
  simp only [val_main_v8_apply, el, er, eb]

/-- THE REFERENCE'S RESULT is `out`, with a token id selecting its row by wrap and clamp. -/
theorem result_eq (x0 : (⟨S16x4096, .i32⟩ : BufTy).Contents (Elt Ideal)) (x1 : (⟨S16x4096x768, .f32⟩ : BufTy).Contents (Elt Ideal))
    (x2 : (⟨S32768x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal)) :
    val_main_v19 (F := Ideal) x0 x1 x2 x3 x4 x5 = out (fun v => clampRow (wrapNeg v)) x0 x1 x2 x3 x4 x5 := by
  funext i
  obtain ⟨b, s, rfl⟩ : ∃ (b : Fin 16) (s : Fin 4096), i = ix2 b s := ⟨i 0, i 1, eq_ix2 i⟩
  have hj : idx_main_v19 (ix2 b s) = ix3 b s (0 : Fin 1) := funext fun a => Fin.ext (by
    have hb : b.val < 16 := b.isLt
    have hs : s.val < 4096 := s.isLt
    match a with
    | ⟨0, _⟩ => show (b.val * 4096 + s.val) / 4096 = b.val; omega
    | ⟨1, _⟩ => show (b.val * 4096 + s.val) / 1 % 4096 = s.val; omega
    | ⟨2, _⟩ => rfl)
  rw [val_main_v19_apply, hj, val_main_v18_apply, val_main_v15_apply, val_main_v17_apply, val_main_v16_apply]
  have el : ∀ k : Fin 128, lidx_main_v15 (ix3 b s (0 : Fin 1)) k = ix3 b s k := fun k => funext fun a => Fin.ext (by
    match a with
    | ⟨0, _⟩ => rfl
    | ⟨1, _⟩ => rfl
    | ⟨2, _⟩ => rfl)
  have er : ∀ k : Fin 128, ridx_main_v15 (ix3 b s (0 : Fin 1)) k = ix2 k (0 : Fin 1) := fun k => funext fun a => Fin.ext (by
    match a with
    | ⟨0, _⟩ => rfl
    | ⟨1, _⟩ => rfl)
  have eb : idx_main_v16 (idx_main_v17 (ix3 b s (0 : Fin 1))) = ix1 (0 : Fin 1) := funext fun a => Fin.ext (by
    match a with
    | ⟨0, _⟩ => rfl)
  simp only [el, er, eb, hidden_apply]
  rfl

end Cert.TokMlp.Ref

end
-- ==== Proof.PreDecode.lean ====
/-
  The precondition, decoded: every token id is non-negative.

  The printed precondition is a conjunction of one-bit words: five "every entry is finite" tests and, last, the test
  that every token id compares ≥ 0 as a signed integer, each a reduction by `and` over its array. Where the whole is 1,
  the last conjunct is 1, and a reduction by `and` that is 1 met a 1 at every index.
-/
import proofs.«423203_j14602888806638_3_alg».proof.Pre_finite_inputs
import proofs.«423203_j14602888806638_3_alg».proof.Proof.Gen.Pre_finite_inputs
import Idealize.ShloMosaic.Lib.ReduceAll
import Idealize.ShloMosaic.Lib.ValueIdx

noncomputable section

namespace Cert.TokMlp

open Idealize.ShloMosaic Idealize.ShloMosaic.ValueIdx Cert.Pre_finite_inputs

instance : Subsingleton Cert.Pre_finite_inputs.S_.Idx := ⟨fun a b => funext fun d => d.elim0⟩

/-- WHERE THE PRECONDITION HOLDS, every token id is ≥ 0 as a signed integer. -/
theorem tk_nonneg {F : FTy → Type} [FloatOps F] (a0 : IVec S16x4096 32) (a1 : FVec F S16x4096x768 .f32)
    (a2 : FVec F S32768x128 .f32) (a3 : FVec F S128 .f32) (a4 : FVec F S128x1 .f32) (a5 : FVec F S1 .f32)
    (h : Cert.Pre_finite_inputs.fn (F := F) a0 a1 a2 a3 a4 a5 = fun _ => 1#1) (i : S16x4096.Idx) :
    IntOp.cmpi .sge (a0 i) 0#32 = 1#1 := by
  have h0 := congrFun h ix0
  unfold Cert.Pre_finite_inputs.fn Cert.Pre_finite_inputs.fn_part1 at h0
  dsimp only at h0
  obtain ⟨-, hlast⟩ := IntOp.andi_eq_one.1 h0
  exact Host.reduce_andi_all _ _ _ _ ix0 hlast i

end Cert.TokMlp

end
-- ==== Proof.lean ====
/-
  A token-conditioned two-layer perceptron, kernel against reference, over the extended reals.

  Inputs: token ids tk [16 × 4096], features hs0 [16 × 4096 × 768], a weight table W1 [32768 × 128] whose first 32000 rows
  are token embeddings and whose last 768 rows are the hidden weights, a hidden bias b1 [128], a projection column
  W2 [128 × 1] and its bias b2 [1]. Entry (b, s) of the result is

      ( Σ_k  max( (W1[row, k] + Σ_h hs0[b, s, h] · W1[32000 + h, k]) + b1[k], 0 ) · W2[k, 0] )  +  b2[0],

  with `row` the embedding row the token id tk[b, s] selects (`Cert.TokMlp.out`).

  The reference takes the embedding rows at the raw ids — a negative index wrapped by the table's length, the read clamped
  into the table — and computes the two products as host contractions. The kernel first clips the ids into [0, 31999],
  takes the rows at the clipped ids the same way, flattens the positions to 65536 rows and runs a grid of 32 points, each
  producing 2048 rows: the block's matrix product (both operands narrowed to a shorter float format, which is the
  identity on the extended reals) plus the embeddings plus the bias, cut at zero, times the projection row, summed along
  the row, plus the projection bias; the flat result is reshaped back.

  On the extended reals the two are the same function of the arguments once the selected rows agree: the kernel adds the
  matrix product and the embedding in the other order, and addition there is commutative; a sum over the grid's blocks is
  a re-indexing. The rows agree exactly where the token id is non-negative — the clip is then the identity up to 31999
  and above it gives 31999, which is where the reference's read clamps — and differ for an id in [-31999, -1], which the
  reference wraps to the table's end and the kernel clips to row 0. The precondition therefore carries, beside the float
  inputs' finiteness, that every token id is ≥ 0; the proof uses only that conjunct (no algebraic law here needs finiteness).

  Modules: Spec (the function and the integer fact), LibGatherRows / LibGatherRows3 (a row take read at an index, at a
  column and at a rank-3 array of positions), LibKeepdims (column casts and row sums), RefValue (the reference is `out`),
  Payload (the body at a row), Entry / EntryRead (the host lines before the region), Blocks (the grid's blocks tile one
  function), KernelRun (the run, read), PreDecode (the precondition's last conjunct).
-/
import proofs.«423203_j14602888806638_3_alg».proof.Defs
import proofs.«423203_j14602888806638_3_alg».proof.Proof.Gen.Kernel
import proofs.«423203_j14602888806638_3_alg».proof.Proof.Gen.Kernel.Skeleton
import proofs.«423203_j14602888806638_3_alg».proof.Proof.Gen.Kernel.Launch
import proofs.«423203_j14602888806638_3_alg».proof.Proof.Gen.Kernel.Points
import proofs.«423203_j14602888806638_3_alg».proof.Proof.Gen.Kernel.Frame
import proofs.«423203_j14602888806638_3_alg».proof.Proof.Gen.KernelIdeal
import proofs.«423203_j14602888806638_3_alg».proof.Proof.Gen.KernelIdeal.Skeleton
import proofs.«423203_j14602888806638_3_alg».proof.Proof.Gen.KernelIdeal.Launch
import proofs.«423203_j14602888806638_3_alg».proof.Proof.Gen.KernelIdeal.Points
import proofs.«423203_j14602888806638_3_alg».proof.Proof.Gen.KernelIdeal.Frame
import proofs.«423203_j14602888806638_3_alg».proof.Proof.Gen.ReferenceIdeal
import proofs.«423203_j14602888806638_3_alg».proof.Proof.Gen.Pre_finite_inputs
import proofs.«423203_j14602888806638_3_alg».proof.Proof.Gen.ReferenceIdeal.Run
import proofs.«423203_j14602888806638_3_alg».proof.Proof.Gen.ReferenceIdeal.Read
import proofs.«423203_j14602888806638_3_alg».proof.Proof.KernelRun
import proofs.«423203_j14602888806638_3_alg».proof.Proof.RefValue
import proofs.«423203_j14602888806638_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at `out` with the clipped ids selecting the
    rows, the reference's at `out` with the raw ids; under the precondition every id is non-negative, and the two agree. -/
theorem algebraic : Cert.algebraic_KernelIdeal_ReferenceIdeal := by
  intro m ρ m' ρ' hpre hagree
  refine ⟨fun c => Cert.TokMlp.Ker.result m c, Cert.TokMlp.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.TokMlp.Ref.result_eq]
  obtain ⟨a0, a1, a2, a3, a4, a5⟩ := hagree c
  rw [a0, a1, a2, a3, a4, a5]
  exact (Cert.TokMlp.out_clip_eq _ (fun i => Cert.TokMlp.tk_nonneg _ _ _ _ _ _ (hpre c) i) _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
